-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S512x128 : Shape := ⟨2, ![512, 128]⟩
abbrev S512 : Shape := ⟨1, ![512]⟩
abbrev S550000 : Shape := ⟨1, ![550000]⟩
abbrev S4096 : Shape := ⟨1, ![4096]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x128 .f32) (main_arg1 : FVec F S512x128 .f32) (main_arg2 : FVec F S512 .f32) (main_arg3 : IVec S550000 32) (main_arg4 : IVec S550000 32) (main_arg5 : IVec S4096 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x128 : Shape := ⟨2, ![50000, 128]⟩
abbrev S512x128 : Shape := ⟨2, ![512, 128]⟩
abbrev S512 : Shape := ⟨1, ![512]⟩
abbrev S550000 : Shape := ⟨1, ![550000]⟩
abbrev S4096 : Shape := ⟨1, ![4096]⟩
abbrev S_ : Shape := ⟨0, ![]⟩
abbrev S550000x1 : Shape := ⟨2, ![550000, 1]⟩
abbrev S550000x128 : Shape := ⟨2, ![550000, 128]⟩
abbrev S50000 : Shape := ⟨1, ![50000]⟩
abbrev S50000x1 : Shape := ⟨2, ![50000, 1]⟩
abbrev S4096x1 : Shape := ⟨2, ![4096, 1]⟩
abbrev S4096x128 : Shape := ⟨2, ![4096, 128]⟩
abbrev S1x512 : Shape := ⟨2, ![1, 512]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 43
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S512x128, .f32⟩
  | .hbm, ⟨2, _⟩ => ⟨S512, .f32⟩
  | .hbm, ⟨3, _⟩ => ⟨S550000, .i32⟩
  | .hbm, ⟨4, _⟩ => ⟨S550000, .i32⟩
  | .hbm, ⟨5, _⟩ => ⟨S4096, .i32⟩
  | .hbm, ⟨6, _⟩ => ⟨S_, .i32⟩
  | .hbm, ⟨7, _⟩ => ⟨S550000, .i32⟩
  | .hbm, ⟨8, _⟩ => ⟨S550000, .i1⟩
  | .hbm, ⟨9, _⟩ => ⟨S_, .i32⟩
  | .hbm, ⟨10, _⟩ => ⟨S550000, .i32⟩
  | .hbm, ⟨11, _⟩ => ⟨S550000, .i32⟩
  | .hbm, ⟨12, _⟩ => ⟨S550000, .i32⟩
  | .hbm, ⟨13, _⟩ => ⟨S550000x1, .i32⟩
  | .hbm, ⟨14, _⟩ => ⟨S550000x128, .f32⟩
  | .hbm, ⟨15, _⟩ => ⟨S_, .f32⟩
  | .hbm, ⟨16, _⟩ => ⟨S50000x128, .f32⟩
  | .hbm, ⟨17, _⟩ => ⟨S550000x1, .i32⟩
  | .hbm, ⟨18, _⟩ => ⟨S50000x128, .f32⟩
  | .hbm, ⟨19, _⟩ => ⟨S_, .f32⟩
  | .hbm, ⟨20, _⟩ => ⟨S550000, .f32⟩
  | .hbm, ⟨21, _⟩ => ⟨S_, .f32⟩
  | .hbm, ⟨22, _⟩ => ⟨S50000, .f32⟩
  | .hbm, ⟨23, _⟩ => ⟨S550000x1, .i32⟩
  | .hbm, ⟨24, _⟩ => ⟨S50000, .f32⟩
  | .hbm, ⟨25, _⟩ => ⟨S50000x128, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x128, .f32⟩
  | .hbm, ⟨41, _⟩ => ⟨S1x512, .f32⟩
  | .hbm, ⟨42, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S550000 : S_.BroadcastsInDim S550000 (![] : Fin 0 → Fin S550000.rank)
  bcast_S550000_S550000x1_0 : S550000.BroadcastsInDim S550000x1 (![0] : Fin 1 → Fin S550000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S512_S1x512 : S512.ShapeCasts S1x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S50000_S550000x1_S550000_n_0_0_1_wf : ScatterDims.WF S50000 S550000x1 S550000 [] [0] [0] 1
  gather_S50000x128_S4096x1_S4096x128_1_0_n_n_0_1_1128_wf : GatherDims.WF S50000x128 S4096x1 S4096x128 [1] [0] [] [0] [] 1 ![1, 128]
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)

variable [Facts₀]

def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_v26) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S512x128 : Shape := ⟨2, ![512, 128]⟩
abbrev S512 : Shape := ⟨1, ![512]⟩
abbrev S550000 : Shape := ⟨1, ![550000]⟩
abbrev S4096 : Shape := ⟨1, ![4096]⟩
abbrev S_ : Shape := ⟨0, ![]⟩
abbrev S550000x1 : Shape := ⟨2, ![550000, 1]⟩
abbrev S550000x128 : Shape := ⟨2, ![550000, 128]⟩
abbrev S50000 : Shape := ⟨1, ![50000]⟩
abbrev S50000x1 : Shape := ⟨2, ![50000, 1]⟩
abbrev S128x512 : Shape := ⟨2, ![128, 512]⟩
abbrev S50000x512 : Shape := ⟨2, ![50000, 512]⟩
abbrev S1x512 : Shape := ⟨2, ![1, 512]⟩
abbrev S4096x1 : Shape := ⟨2, ![4096, 1]⟩
abbrev S4096x512 : Shape := ⟨2, ![4096, 512]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S512x128, .f32⟩
  | .hbm, ⟨2, _⟩ => ⟨S512, .f32⟩
  | .hbm, ⟨3, _⟩ => ⟨S550000, .i32⟩
  | .hbm, ⟨4, _⟩ => ⟨S550000, .i32⟩
  | .hbm, ⟨5, _⟩ => ⟨S4096, .i32⟩
  | .hbm, ⟨6, _⟩ => ⟨S_, .i32⟩
  | .hbm, ⟨7, _⟩ => ⟨S550000, .i32⟩
  | .hbm, ⟨8, _⟩ => ⟨S550000, .i1⟩
  | .hbm, ⟨9, _⟩ => ⟨S_, .i32⟩
  | .hbm, ⟨10, _⟩ => ⟨S550000, .i32⟩
  | .hbm, ⟨11, _⟩ => ⟨S550000, .i32⟩
  | .hbm, ⟨12, _⟩ => ⟨S550000, .i32⟩
  | .hbm, ⟨13, _⟩ => ⟨S550000x1, .i32⟩
  | .hbm, ⟨14, _⟩ => ⟨S550000x128, .f32⟩
  | .hbm, ⟨15, _⟩ => ⟨S_, .f32⟩
  | .hbm, ⟨16, _⟩ => ⟨S50000x128, .f32⟩
  | .hbm, ⟨17, _⟩ => ⟨S550000x1, .i32⟩
  | .hbm, ⟨18, _⟩ => ⟨S50000x128, .f32⟩
  | .hbm, ⟨19, _⟩ => ⟨S_, .f32⟩
  | .hbm, ⟨20, _⟩ => ⟨S550000, .f32⟩
  | .hbm, ⟨21, _⟩ => ⟨S_, .f32⟩
  | .hbm, ⟨22, _⟩ => ⟨S50000, .f32⟩
  | .hbm, ⟨23, _⟩ => ⟨S550000x1, .i32⟩
  | .hbm, ⟨24, _⟩ => ⟨S50000, .f32⟩
  | .hbm, ⟨25, _⟩ => ⟨S50000x128, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x512, .f32⟩
  | .hbm, ⟨33, _⟩ => ⟨S50000x512, .f32⟩
  | .hbm, ⟨34, _⟩ => ⟨S1x512, .f32⟩
  | .hbm, ⟨35, _⟩ => ⟨S50000x512, .f32⟩
  | .hbm, ⟨36, _⟩ => ⟨S50000x512, .f32⟩
  | .hbm, ⟨37, _⟩ => ⟨S50000x512, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S_S550000 : S_.BroadcastsInDim S550000 (![] : Fin 0 → Fin S550000.rank)
  bcast_S550000_S550000x1_0 : S550000.BroadcastsInDim S550000x1 (![0] : Fin 1 → Fin S550000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S4096 : S_.BroadcastsInDim S4096 (![] : Fin 0 → Fin S4096.rank)
  bcast_S4096_S4096x1_0 : S4096.BroadcastsInDim S4096x1 (![0] : Fin 1 → Fin S4096x1.rank)
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S50000_S550000x1_S550000_n_0_0_1_wf : ScatterDims.WF S50000 S550000x1 S550000 [] [0] [0] 1
  dot_S50000x128_S128x512_S50000x512_1_0_0_1_n_n_wf : DotDims.WF S50000x128 S128x512 S50000x512 [1] [0] [0] [1] [] []
  gather_S50000x512_S4096x1_S4096x512_1_0_n_n_0_1_1512_wf : GatherDims.WF S50000x512 S4096x1 S4096x512 [1] [0] [] [0] [] 1 ![1, 512]

variable [Facts₀]

def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf

class Facts : Prop extends Facts₀ where

variable [Facts]
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.RowLayer.lean ====
/-
  The layer on gathered rows. For a table h : [50000, 128], weights w : [512, 128], a bias b : [512] and a column of
  4096 start indices, the result at (p, q) is

      tanh ( (sum over k of h[row p, k] * w[q, k]) + b[q] )

  where row p is position p's start index read signed and clamped into [0, 49999]. Two arrangements give it: apply the
  layer to the gathered rows (gather first), or gather rows of the layer applied to every row of the table (gather last).
  Both hold because a row gather only selects a row and leaves the column alone, and the layer's value at (r, q) depends
  on row r of the table only. No arithmetic law of the extended reals is used.
-/
import Idealize.ShloMosaic.PureOps.Ideal
import Idealize.ShloMosaic.Lib.ValueIdx
import proofs.«156681_j69870527971698_1_alg».proof.Proof.LibGS

noncomputable section

namespace Cert.RowLayer

open Idealize.ShloMosaic Idealize.ShloMosaic.ValueIdx
open scoped BigOperators

/-- The table row that position p's start index names: read signed, clamped into [0, 49999]. -/
def rowOf (idx : IVec ⟨2, ![4096, 1]⟩ 32) (p : Fin 4096) : Fin 50000 :=
  ⟨min (idx (ix2 p (0 : Fin 1))).toInt.toNat (50000 - 1), by omega⟩

/-- The layer's value from one row of 128 features: tanh of the row's product with row q of the weights, plus b[q]. -/
def unit (x : Fin 128 → EReal) (w : FVec Ideal ⟨2, ![512, 128]⟩ .f32) (b : FVec Ideal ⟨1, ![512]⟩ .f32) (q : Fin 512) : EReal :=
  Ideal.tanh ((∑ k : Fin 128, x k * w (ix2 q k)) + b (ix1 q))

/-- The layer on the rows the start indices name. -/
def onRows (h : FVec Ideal ⟨2, ![50000, 128]⟩ .f32) (w : FVec Ideal ⟨2, ![512, 128]⟩ .f32) (b : FVec Ideal ⟨1, ![512]⟩ .f32)
    (idx : IVec ⟨2, ![4096, 1]⟩ 32) : FVec Ideal ⟨2, ![4096, 512]⟩ .f32 :=
  fun i => unit (fun k => h (ix2 (rowOf idx (i 0)) k)) w b (i 1)

/-- The layer on a dense batch of 4096 rows. -/
def onBatch (a : FVec Ideal ⟨2, ![4096, 128]⟩ .f32) (w : FVec Ideal ⟨2, ![512, 128]⟩ .f32) (b : FVec Ideal ⟨1, ![512]⟩ .f32) :
    FVec Ideal ⟨2, ![4096, 512]⟩ .f32 :=
  fun i => unit (fun k => a (ix2 (i 0) k)) w b (i 1)

/-- Gather first: the layer on the batch of gathered rows is the layer on the named rows. -/
theorem onBatch_gather (d : GatherDims ⟨2, ![50000, 128]⟩ ⟨2, ![4096, 1]⟩ ⟨2, ![4096, 128]⟩)
    (hoff : d.offsetDims = [1]) (hcoll : d.collapsedSliceDims = [0]) (hob : d.operandBatchingDims = []) (hsim : d.startIndexMap = [0])
    (hivd : d.indexVectorDim = 1)
    (h : FVec Ideal ⟨2, ![50000, 128]⟩ .f32) (w : FVec Ideal ⟨2, ![512, 128]⟩ .f32) (b : FVec Ideal ⟨1, ![512]⟩ .f32)
    (idx : IVec ⟨2, ![4096, 1]⟩ 32) :
    onBatch (Host.gather d h idx) w b = onRows h w b idx := by
  funext i
  unfold onBatch onRows
  congr 1
  funext k
  exact Cert.LibGS.gather_rows d hoff hcoll hob hsim hivd h idx (i 0) k (by decide)

/-- Gather last: rows gathered from the layer applied to every row of the table are the layer on the named rows. -/
theorem gather_layer (d : GatherDims ⟨2, ![50000, 512]⟩ ⟨2, ![4096, 1]⟩ ⟨2, ![4096, 512]⟩)
    (hoff : d.offsetDims = [1]) (hcoll : d.collapsedSliceDims = [0]) (hob : d.operandBatchingDims = []) (hsim : d.startIndexMap = [0])
    (hivd : d.indexVectorDim = 1)
    (h : FVec Ideal ⟨2, ![50000, 128]⟩ .f32) (w : FVec Ideal ⟨2, ![512, 128]⟩ .f32) (b : FVec Ideal ⟨1, ![512]⟩ .f32)
    (idx : IVec ⟨2, ![4096, 1]⟩ 32) (T : FVec Ideal ⟨2, ![50000, 512]⟩ .f32)
    (hT : ∀ (r : Fin 50000) (q : Fin 512), T (ix2 r q) = unit (fun k => h (ix2 r k)) w b q) :
    Host.gather d T idx = onRows h w b idx := by
  funext i
  obtain ⟨p, q, rfl⟩ : ∃ (p : Fin 4096) (q : Fin 512), i = ix2 p q := ⟨i 0, i 1, eq_ix2 i⟩
  rw [Cert.LibGS.gather_rows d hoff hcoll hob hsim hivd T idx p q (by decide), hT]
  rfl

end Cert.RowLayer

end
-- ==== Proof.RefLayer.lean ====
/-
  The reference computes the layer on every one of the table's 50000 rows and then gathers the 4096 named rows. Read at
  (r, q), the value before the gather is tanh of (row r of the table times row q of the weights, summed over the 128
  features, plus b[q]): the product with the transposed weights is that sum, and the bias reaches every row through its
  two broadcasts. The gather then only picks rows, so the result is the layer on the named rows.
-/
import proofs.«156681_j69870527971698_1_alg».proof.Proof.Gen.ReferenceIdeal.Read
import proofs.«156681_j69870527971698_1_alg».proof.Proof.RowLayer

noncomputable section

namespace Cert.ReferenceIdeal.RefLayer

open Cert.ReferenceIdeal Cert.ReferenceIdeal.Gen Cert.ReferenceIdeal.Read
open Idealize.ShloMosaic Idealize.ShloMosaic.ValueIdx
open scoped BigOperators

/-- The left operand's index of the product at (r, q), feature k: the table's (r, k). -/
theorem lidx_eq (r : Fin 50000) (q : Fin 512) (k : Fin 128) : lidx_main_v21 (ix2 r q) k = ix2 r k :=
  funext fun a => Fin.ext (by match a with | ⟨0, _⟩ => rfl | ⟨1, _⟩ => rfl)

/-- The right operand's index, through the transpose: the weights' (q, k). -/
theorem ridx_eq (r : Fin 50000) (q : Fin 512) (k : Fin 128) : idx_main_v20 (ridx_main_v21 (ix2 r q) k) = ix2 q k :=
  funext fun a => Fin.ext (by match a with | ⟨0, _⟩ => rfl | ⟨1, _⟩ => rfl)

/-- The bias's index through its two broadcasts: b[q]. -/
theorem bidx_eq (r : Fin 50000) (q : Fin 512) : idx_main_v22 (idx_main_v23 (ix2 r q)) = ix1 q :=
  funext fun a => Fin.ext (by match a with | ⟨0, _⟩ => rfl)

/-- The layer before the gather, at row r and column q. -/
theorem layer_apply (x0 : (⟨S50000x128, .f32⟩ : BufTy).Contents (Elt Ideal)) (x1 : (⟨S512x128, .f32⟩ : BufTy).Contents (Elt Ideal))
    (x2 : (⟨S512, .f32⟩ : BufTy).Contents (Elt Ideal)) (x3 x4 : (⟨S550000, .i32⟩ : BufTy).Contents (Elt Ideal)) (r : Fin 50000) (q : Fin 512) :
    val_main_v25 (F := Ideal) x0 x1 x2 x3 x4 (ix2 r q)
      = Cert.RowLayer.unit (fun k => val_main_v19 (F := Ideal) x0 x3 x4 (ix2 r k)) x1 x2 q := by
  rw [val_main_v25_apply, val_main_v24_apply, val_main_v21_apply, val_main_v23_apply, val_main_v22_apply]
  simp only [val_main_v20_apply, lidx_eq, ridx_eq, bidx_eq, Ideal.hostUnary_tanh_def, Ideal.addf_def]
  rfl

/-- The reference's result is the layer on the rows its start indices name. -/
theorem result_eq (x0 : (⟨S50000x128, .f32⟩ : BufTy).Contents (Elt Ideal)) (x1 : (⟨S512x128, .f32⟩ : BufTy).Contents (Elt Ideal))
    (x2 : (⟨S512, .f32⟩ : BufTy).Contents (Elt Ideal)) (x3 x4 : (⟨S550000, .i32⟩ : BufTy).Contents (Elt Ideal))
    (x5 : (⟨S4096, .i32⟩ : BufTy).Contents (Elt Ideal)) :
    val_main_v32 (F := Ideal) x0 x1 x2 x3 x4 x5
      = Cert.RowLayer.onRows (val_main_v19 (F := Ideal) x0 x3 x4) x1 x2 (val_main_v31 (F := Ideal) x5) := by
  unfold val_main_v32
  exact Cert.RowLayer.gather_layer gather_S50000x512_S4096x1_S4096x512_1_0_n_n_0_1_1512 rfl rfl rfl rfl rfl
    (val_main_v19 (F := Ideal) x0 x3 x4) x1 x2 (val_main_v31 (F := Ideal) x5) (val_main_v25 (F := Ideal) x0 x1 x2 x3 x4)
    (fun r q => layer_apply x0 x1 x2 x3 x4 r q)

end Cert.ReferenceIdeal.RefLayer

end
-- ==== Proof.KerPayload.lean ====
/-
  What the kernel body stores, read at one entry. From a block x of 1024 rows by 128 features, the whole weights w
  and the bias as a 1 by 512 row b, the stored value at (p, q) is

      tanh ( (sum over k of x[p, k] * w[q, k]) + b[0, q] ) :

  the two narrowings to half-width floats are the identity on the extended reals, the matrix product into a zero
  accumulator contracts the feature axis of both operands, and the broadcast copies the bias row to every row p.
-/
import proofs.«156681_j69870527971698_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.KerPayload

open Cert.KernelIdeal Cert.KernelIdeal.Gen
open Idealize.ShloMosaic Idealize.ShloMosaic.ValueIdx
open scoped BigOperators

/-! ## The product's operand indices: rows of the output pick rows of both operands, the feature is contracted -/

theorem lhs_row (i : S1024x512.Idx) (k : dot_S1024x128_S512x128_S1024x512_1_1_0_0_n_n.contr.Idx) :
    (dot_S1024x128_S512x128_S1024x512_1_1_0_0_n_n.lhsIdx i k 0).val = (i 0).val := by
  unfold DotDims.lhsIdx
  rw [dif_neg (show ¬(0 : Fin S1024x128.rank) ∈ dot_S1024x128_S512x128_S1024x512_1_1_0_0_n_n.lhsBatch by decide),
    dif_pos (show (0 : Fin S1024x128.rank) ∈ dot_S1024x128_S512x128_S1024x512_1_1_0_0_n_n.lhsNonContracting by decide)]
  rfl

theorem lhs_feat (i : S1024x512.Idx) (k : dot_S1024x128_S512x128_S1024x512_1_1_0_0_n_n.contr.Idx) :
    (dot_S1024x128_S512x128_S1024x512_1_1_0_0_n_n.lhsIdx i k 1).val = (k ⟨0, by decide⟩).val :=
  dot_S1024x128_S512x128_S1024x512_1_1_0_0_n_n.lhsIdx_val_of_single rfl i k

theorem rhs_row (i : S1024x512.Idx) (k : dot_S1024x128_S512x128_S1024x512_1_1_0_0_n_n.contr.Idx) :
    (dot_S1024x128_S512x128_S1024x512_1_1_0_0_n_n.rhsIdx i k 0).val = (i 1).val := by
  unfold DotDims.rhsIdx
  rw [dif_neg (show ¬(0 : Fin S512x128.rank) ∈ dot_S1024x128_S512x128_S1024x512_1_1_0_0_n_n.rhsBatch by decide),
    dif_pos (show (0 : Fin S512x128.rank) ∈ dot_S1024x128_S512x128_S1024x512_1_1_0_0_n_n.rhsNonContracting by decide)]
  rfl

theorem rhs_feat (i : S1024x512.Idx) (k : dot_S1024x128_S512x128_S1024x512_1_1_0_0_n_n.contr.Idx) :
    (dot_S1024x128_S512x128_S1024x512_1_1_0_0_n_n.rhsIdx i k 1).val = (k ⟨0, by decide⟩).val :=
  dot_S1024x128_S512x128_S1024x512_1_1_0_0_n_n.rhsIdx_val_of_single rfl i k

/-- The matrix product into the zero accumulator at (p, q): the sum over the 128 features of x[p, k] * w[q, k]. -/
theorem product_apply (x : FVec Ideal S1024x128 .bf16) (w : FVec Ideal S512x128 .bf16) (p : Fin 1024) (q : Fin 512) :
    FloatOps.matmul (F := Ideal) dot_S1024x128_S512x128_S1024x512_1_1_0_0_n_n none x w (constant (F := Ideal) S1024x512 .f32 0x00000000#32) (ix2 p q)
      = ∑ k : Fin 128, x (ix2 p k) * w (ix2 q k) := by
  rw [Ideal.matmul_constant_zero_apply,
    ← Equiv.sum_comp (ValueIdx.contrEquiv1 dot_S1024x128_S512x128_S1024x512_1_1_0_0_n_n 128 rfl rfl).symm]
  refine Finset.sum_congr rfl fun k _ => ?_
  have hk := ValueIdx.contrEquiv1_symm_val dot_S1024x128_S512x128_S1024x512_1_1_0_0_n_n 128 rfl rfl k
  have el : dot_S1024x128_S512x128_S1024x512_1_1_0_0_n_n.lhsIdx (ix2 p q)
      ((ValueIdx.contrEquiv1 dot_S1024x128_S512x128_S1024x512_1_1_0_0_n_n 128 rfl rfl).symm k) = ix2 p k := funext fun a => Fin.ext (by
    match a with
    | ⟨0, _⟩ => exact lhs_row _ _
    | ⟨1, _⟩ => exact (lhs_feat _ _).trans hk)
  have er : dot_S1024x128_S512x128_S1024x512_1_1_0_0_n_n.rhsIdx (ix2 p q)
      ((ValueIdx.contrEquiv1 dot_S1024x128_S512x128_S1024x512_1_1_0_0_n_n 128 rfl rfl).symm k) = ix2 q k := funext fun a => Fin.ext (by
    match a with
    | ⟨0, _⟩ => exact rhs_row _ _
    | ⟨1, _⟩ => exact (rhs_feat _ _).trans hk)
  rw [el, er]

/-- The bias row copied to every row: at (p, q) it is b[0, q]. -/
theorem bias_apply (b : FVec Ideal S1x512 .f32) (p : Fin 1024) (q : Fin 512) :
    broadcastTo S1024x512 b broadcasts_S1x512_S1024x512 (ix2 p q) = b (ix2 (0 : Fin 1) q) :=
  broadcastTo_apply b broadcasts_S1x512_S1024x512 (ix2 p q) (ix2 (0 : Fin 1) q) (fun a => by
    match a with
    | ⟨0, _⟩ => rfl
    | ⟨1, _⟩ => rfl)

/-- The stored value at (p, q). -/
theorem pay_apply (x : Vec Ideal S1024x128 .f32) (w : Vec Ideal S512x128 .f32) (b : Vec Ideal S1x512 .f32) (p : Fin 1024) (q : Fin 512) :
    k0_pay1 (F := Ideal) x w b (ix2 p q)
      = Ideal.tanh ((∑ k : Fin 128, x (ix2 p k) * w (ix2 q k)) + b (ix2 (0 : Fin 1) q)) := by
  unfold k0_pay1
  rw [shapeCast_self, shapeCast_self]
  show Ideal.tanh (FloatOps.matmul (F := Ideal) dot_S1024x128_S512x128_S1024x512_1_1_0_0_n_n none
      (truncf (F := Ideal) .bf16 x bitsLt_bf16_f32) (truncf (F := Ideal) .bf16 w bitsLt_bf16_f32)
      (constant (F := Ideal) S1024x512 .f32 0x00000000#32) (ix2 p q)
    + broadcastTo S1024x512 (b : FVec Ideal S1x512 .f32) broadcasts_S1x512_S1024x512 (ix2 p q)) = _
  rw [product_apply, bias_apply]
  rfl

end Cert.KernelIdeal.KerPayload

end
-- ==== Proof.KerArray.lean ====
/-
  The kernel's output array after the run. The grid has four points; point t reads rows 1024 t .. 1024 t + 1023 of the
  gathered batch (all 128 features), the whole weights and the whole bias row, and writes rows 1024 t .. 1024 t + 1023 of
  the output (all 512 columns). So what point t writes is block t of the layer applied to the whole batch, the four
  blocks tile the 4096 rows, and the array ends as the layer on the batch.
  Before the region the host builds the batch: the table of averaged neighbourhoods (the sum of the features of every
  edge's source landing on its destination, plus the node's own features, over the in-degree plus one), then the rows of
  that table the start indices name; and it reshapes the bias to a 1 by 512 row. With the gather read row by row, the
  output is the layer on the named rows of the table.
-/
import proofs.«156681_j69870527971698_1_alg».proof.Proof.Gen.KernelIdeal.Value
import proofs.«156681_j69870527971698_1_alg».proof.Proof.KerPayload
import proofs.«156681_j69870527971698_1_alg».proof.Proof.RowLayer
import Idealize.ShloMosaic.Lib.StableHlo.Run
import Idealize.ShloMosaic.Lib.Pipeline.Value

set_option maxRecDepth 16384

noncomputable section

namespace Cert.KernelIdeal.KerArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-! ## The arrays the region finds, by their literal types -/

/-- The batch of gathered rows. -/
abbrev batch (c : Dev nD) : FVec Ideal S4096x128 .f32 := V m c main_v26
/-- The weights. -/
abbrev weights (c : Dev nD) : FVec Ideal S512x128 .f32 := V m c main_arg1
/-- The bias as a 1 by 512 row. -/
abbrev biasRow (c : Dev nD) : FVec Ideal S1x512 .f32 := V m c main_v27
/-- The bias row read as a vector of 512. -/
abbrev biasVec (c : Dev nD) : FVec Ideal S512 .f32 := fun j => biasRow m c (ix2 (0 : Fin 1) (j 0))

/-! ## What each point writes -/

theorem origin : (![0, 0] : Fin 2 → Nat) = fun _ => 0 := funext fun a => by fin_cases a <;> rfl

/-- The index maps over the four points: the batch's row block moves with the output's, every other block index is 0. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Every one of the four row blocks of the output is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- Reading the output's block t of any array: the array at the block's index embedded. -/
theorem read_out (G : FVec Ideal S4096x512 .f32) (t : Fin cfg0.N) (y : S1024x512.Idx) :
    ((cfg0.win 3).blk t).view.read (Elt Ideal) G y = G (((cfg0.win 3).blk t).view.emb y) := by
  rw [View.read_apply]
  rfl

/-- Point t writes block t of the layer on the whole batch. -/
theorem flushed_eq (c : Dev nD) (t : Fin cfg0.N) :
    (dats m 0 c).flushed 3 t = ((cfg0.win 3).blk t).view.read (Elt Ideal)
      (Cert.RowLayer.onBatch (batch m c) (weights m c) (biasVec m c)) := by
  rw [Value.flushed3]
  unfold out0_3
  rw [View.canon_unit_zero origin]
  simp only [View.ld_unit_zero (S := S1024x128) origin, View.ld_unit_zero (S := S512x128) origin,
    View.ld_unit_zero (S := S1x512) origin]
  obtain ⟨e0, e1, e2, e3, e4, e5, e6⟩ := idx_facts t
  funext j
  obtain ⟨p, q, rfl⟩ : ∃ (p : Fin 1024) (q : Fin 512), j = ix2 p q := ⟨j 0, j 1, eq_ix2 j⟩
  refine (KerPayload.pay_apply (iblk m c 0 t) (iblk m c 1 t) (iblk m c 2 t) p q).trans ?_
  have hb : ∀ k : Fin 128, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 128 + 1 * k.val = k.val; omega
  have hw : ∀ k : Fin 128, ((cfg0.win 1).blk t).view.emb (ix2 q k)
      = ix2 ((((cfg0.win 3).blk t).view.emb (ix2 p q)) 1) k := fun k => by
    funext a; apply Fin.ext
    match a with
    | ⟨0, _⟩ => show win0_1.index t (0 : Fin 2) * 512 + 1 * q.val = win0_3.index t (1 : Fin 2) * 512 + 1 * q.val; omega
    | ⟨1, _⟩ => show win0_1.index t (1 : Fin 2) * 128 + 1 * k.val = k.val; omega
  have hbias : ((cfg0.win 2).blk t).view.emb (ix2 (0 : Fin 1) q)
      = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega
  have hbv : ∀ k : Fin 128, iblk m c 0 t (ix2 p k)
      = batch m c (ix2 ((((cfg0.win 3).blk t).view.emb (ix2 p q)) 0) k) := fun k => by
    exact congrArg (batch m c) (hb k)
  have hwv : ∀ k : Fin 128, iblk m c 1 t (ix2 q k)
      = weights m c (ix2 ((((cfg0.win 3).blk t).view.emb (ix2 p q)) 1) k) := fun k => by
    exact congrArg (weights m c) (hw k)
  have hbiasv : iblk m c 2 t (ix2 (0 : Fin 1) q)
      = biasRow m c (ix2 (0 : Fin 1) ((((cfg0.win 3).blk t).view.emb (ix2 p q)) 1)) := by
    exact congrArg (biasRow m c) hbias
  refine Eq.trans ?_ (read_out (Cert.RowLayer.onBatch (batch m c) (weights m c) (biasVec m c)) t (ix2 p q)).symm
  unfold Cert.RowLayer.onBatch Cert.RowLayer.unit
  simp only [hbv, hwv, hbiasv]

/-! ## The four blocks tile the output -/

/-- An index is in point t's block iff each coordinate is in the block's range on its axis. -/
theorem mem_blk (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v28).slice (win0_3.rect t)).set ↔ _
  rw [View.set_slice_whole, Rect.mem_set_unit]
  exact Iff.rfl

/-- Row r of the output lies in the block of the point whose row block is r / 1024. -/
theorem cover (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the run: the layer on the whole batch. -/
theorem final_batch (c : Dev nD) :
    (dats m 0 c).arrAt 3 cfg0.N = Cert.RowLayer.onBatch (batch m c) (weights m c) (biasVec m c) :=
  (dats m 0 c).arrAt_eq_of_cover 3 _ (fun t _ => flushed_eq m c t) cover

/-! ## What the host built before the region -/

/-- An edge endpoint with a negative value wrapped once by the number of nodes. -/
def wrapEdges (x : (⟨S550000, .i32⟩ : BufTy).Contents (Elt Ideal)) : (⟨S550000, .i32⟩ : BufTy).Contents (Elt Ideal) :=
  select (cmpi .slt x (broadcastInDim S550000 ![] bcast_S_S550000 (constantI S_ 32 0#32)))
    (addi x (broadcastInDim S550000 ![] bcast_S_S550000 (constantI S_ 32 50000#32))) x

/-- For every node, the sum of the features of the sources of the edges that end at it. -/
def neighSum (x0 : (⟨S50000x128, .f32⟩ : BufTy).Contents (Elt Ideal)) (x3 x4 : (⟨S550000, .i32⟩ : BufTy).Contents (Elt Ideal)) :
    (⟨S50000x128, .f32⟩ : BufTy).Contents (Elt Ideal) :=
  Host.scatterAdd scatter_S50000x128_S550000x1_S550000x128_1_0_0_1
    (broadcastInDim S50000x128 ![] bcast_S_S50000x128 (constant (F := Ideal) S_ .f32 0x00000000#32))
    (broadcastInDim S550000x1 ![0] bcast_S550000_S550000x1_0 x4)
    (Host.gather gather_S50000x128_S550000x1_S550000x128_1_0_n_n_0_1_1128 x0
      (broadcastInDim S550000x1 ![0] bcast_S550000_S550000x1_0 (wrapEdges x3)))

/-- For every node, the number of edges that end at it. -/
def degree (x4 : (⟨S550000, .i32⟩ : BufTy).Contents (Elt Ideal)) : (⟨S50000, .f32⟩ : BufTy).Contents (Elt Ideal) :=
  Host.scatterAdd scatter_S50000_S550000x1_S550000_n_0_0_1
    (broadcastInDim S50000 ![] bcast_S_S50000 (constant (F := Ideal) S_ .f32 0x00000000#32))
    (broadcastInDim S550000x1 ![0] bcast_S550000_S550000x1_0 x4)
    (broadcastInDim S550000 ![] bcast_S_S550000 (constant (F := Ideal) S_ .f32 0x3F800000#32))

/-- The table of averaged neighbourhoods: (neighbour sum + own features) / (degree + 1). -/
def table (x0 : (⟨S50000x128, .f32⟩ : BufTy).Contents (Elt Ideal)) (x3 x4 : (⟨S550000, .i32⟩ : BufTy).Contents (Elt Ideal)) :
    (⟨S50000x128, .f32⟩ : BufTy).Contents (Elt Ideal) :=
  Host.divf (addf (neighSum x0 x3 x4) x0)
    (broadcastInDim S50000x128 ![0, 1] bcast_S50000x1_S50000x128_0_1
      (addf (broadcastInDim S50000x1 ![0] bcast_S50000_S50000x1_0 (degree x4))
        (broadcastInDim S50000x1 ![] bcast_S_S50000x1 (constant (F := Ideal) S_ .f32 0x3F800000#32))))

/-- The column of start indices: the requested ids, a negative one wrapped once by the number of nodes. -/
def starts (x5 : (⟨S4096, .i32⟩ : BufTy).Contents (Elt Ideal)) : (⟨S4096x1, .i32⟩ : BufTy).Contents (Elt Ideal) :=
  broadcastInDim S4096x1 ![0] bcast_S4096_S4096x1_0
    (select (cmpi .slt x5 (broadcastInDim S4096 ![] bcast_S_S4096 (constantI S_ 32 0#32)))
      (addi x5 (broadcastInDim S4096 ![] bcast_S_S4096 (constantI S_ 32 50000#32))) x5)

/-- The batch the region finds is the table's rows at the start indices. -/
theorem batch_eq (c : Dev nD) :
    batch m c = Host.gather gather_S50000x128_S4096x1_S4096x128_1_0_n_n_0_1_1128
      (table (m ((c : Thread nD τ).loc main_arg0)) (m ((c : Thread nD τ).loc main_arg3)) (m ((c : Thread nD τ).loc main_arg4)))
      (starts (m ((c : Thread nD τ).loc main_arg5))) := by
  show V m c main_v26 = _
  dsimp only [Gen.V, Gen.hostOps0]
  after_results_simp <;> rfl

/-- The bias row the region finds is the bias reshaped. -/
theorem biasRow_eq (c : Dev nD) :
    biasRow m c = shapeCast S1x512 (m ((c : Thread nD τ).loc main_arg2)) shapeCasts_S512_S1x512 := by
  show V m c main_v27 = _
  dsimp only [Gen.V, Gen.hostOps0]
  after_results_simp <;> rfl

/-- Read as a vector of 512 it is the bias. -/
theorem biasVec_eq (c : Dev nD) : biasVec m c = m ((c : Thread nD τ).loc main_arg2) := by
  funext j
  show biasRow m c (ix2 (0 : Fin 1) (j 0)) = _
  rw [biasRow_eq]
  refine (shapeCast_addUnit_apply ![512] (m ((c : Thread nD τ).loc main_arg2)) shapeCasts_S512_S1x512 (ix2 (0 : Fin 1) (j 0))).trans ?_
  congr 1
  funext a
  match a with
  | ⟨0, _⟩ => rfl

/-! ## The output, and the run -/

/-- The output array after the run: the layer on the rows of the table that the start indices name. -/
theorem final (c : Dev nD) :
    (dats m 0 c).arrAt 3 cfg0.N = Cert.RowLayer.onRows
      (table (m ((c : Thread nD τ).loc main_arg0)) (m ((c : Thread nD τ).loc main_arg3)) (m ((c : Thread nD τ).loc main_arg4)))
      (m ((c : Thread nD τ).loc main_arg1)) (m ((c : Thread nD τ).loc main_arg2)) (starts (m ((c : Thread nD τ).loc main_arg5))) := by
  rw [final_batch, batch_eq, biasVec_eq]
  rw [show weights m c = m ((c : Thread nD τ).loc main_arg1) from V_main_arg1 m c]
  exact Cert.RowLayer.onBatch_gather gather_S50000x128_S4096x1_S4096x128_1_0_n_n_0_1_1128 rfl rfl rfl rfl rfl _ _ _ _

/-- Every execution ends with the output at that function of the arguments, the arguments unchanged. -/
theorem run : θ_run defs (onTc (τ := τ) (main (F := Ideal))) ⟨m, fun _ => 0, ρ⟩ fun r => ∀ c : Dev nD,
      r.2.mem ((c : Thread nD τ).loc main_v28) = Cert.RowLayer.onRows
        (table (m ((c : Thread nD τ).loc main_arg0)) (m ((c : Thread nD τ).loc main_arg3)) (m ((c : Thread nD τ).loc main_arg4)))
        (m ((c : Thread nD τ).loc main_arg1)) (m ((c : Thread nD τ).loc main_arg2)) (starts (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KerArray

end
-- ==== Proof.lean ====
/-
  A graph layer on 4096 requested nodes. Both programs first build, from the node features, the edge sources and the edge
  destinations, the table of averaged neighbourhoods: for every node the sum of the features of the sources of the edges
  ending at it, plus its own features, divided by its in-degree plus one. Then, with row(p) the requested id of position p
  (a negative id wrapped once by the number of nodes, then clamped into the table as the gather does), both compute

      out[p, q] = tanh ( (sum over the 128 features k of table[row(p), k] * W[q, k]) + bias[q] ).

  The kernel gathers the 4096 rows first and applies the layer to that batch in four blocks of 1024 rows (its two
  narrowings to half-width floats are the identity on the extended reals, and its matrix product into a zero accumulator
  is the same sum). The reference applies the layer to all 50000 rows of the table and gathers the 4096 rows last. A row
  gather only selects a row and keeps the column, and the layer's value at (r, q) depends on row r of the table alone, so
  the two agree entry by entry; no arithmetic law of the extended reals is needed, and the finiteness of the inputs is
  not used. The table and the start indices are the same host operations of the same arguments in both programs.
  The idealization rewrote no operation, so there is nothing to preserve.
-/
import proofs.«156681_j69870527971698_1_alg».proof.Defs
import proofs.«156681_j69870527971698_1_alg».proof.Proof.Gen.Kernel
import proofs.«156681_j69870527971698_1_alg».proof.Proof.Gen.Kernel.Skeleton
import proofs.«156681_j69870527971698_1_alg».proof.Proof.Gen.Kernel.Launch
import proofs.«156681_j69870527971698_1_alg».proof.Proof.Gen.Kernel.Points
import proofs.«156681_j69870527971698_1_alg».proof.Proof.Gen.Kernel.Frame
import proofs.«156681_j69870527971698_1_alg».proof.Proof.Gen.KernelIdeal
import proofs.«156681_j69870527971698_1_alg».proof.Proof.Gen.KernelIdeal.Skeleton
import proofs.«156681_j69870527971698_1_alg».proof.Proof.Gen.KernelIdeal.Launch
import proofs.«156681_j69870527971698_1_alg».proof.Proof.Gen.KernelIdeal.Points
import proofs.«156681_j69870527971698_1_alg».proof.Proof.Gen.KernelIdeal.Frame
import proofs.«156681_j69870527971698_1_alg».proof.Proof.Gen.ReferenceIdeal
import proofs.«156681_j69870527971698_1_alg».proof.Proof.Gen.Pre_finite_inputs
import proofs.«156681_j69870527971698_1_alg».proof.Proof.Gen.KernelIdeal.Value
import proofs.«156681_j69870527971698_1_alg».proof.Proof.Gen.ReferenceIdeal.Run
import proofs.«156681_j69870527971698_1_alg».proof.Proof.Gen.ReferenceIdeal.Read
import proofs.«156681_j69870527971698_1_alg».proof.Proof.RefLayer
import proofs.«156681_j69870527971698_1_alg».proof.Proof.KerArray
import Idealize.ShloMosaic.Adequacy
import Idealize.ShloMosaic.Init

noncomputable section

namespace Cert.Proof

open Idealize.ShloMosaic Idealize.SL.Sem

/-- The kernel's table of averaged neighbourhoods is the reference's: the same operations of the same arguments. -/
theorem table_eq (x0 : (⟨Cert.ReferenceIdeal.S50000x128, .f32⟩ : BufTy).Contents (Elt Ideal))
    (x3 x4 : (⟨Cert.ReferenceIdeal.S550000, .i32⟩ : BufTy).Contents (Elt Ideal)) :
    Cert.ReferenceIdeal.Read.val_main_v19 (F := Ideal) x0 x3 x4 = Cert.KernelIdeal.KerArray.table x0 x3 x4 := rfl

/-- The kernel's column of start indices is the reference's. -/
theorem starts_eq (x5 : (⟨Cert.ReferenceIdeal.S4096, .i32⟩ : BufTy).Contents (Elt Ideal)) :
    Cert.ReferenceIdeal.Read.val_main_v31 (F := Ideal) x5 = Cert.KernelIdeal.KerArray.starts x5 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer on the named rows of the one table. -/
theorem algebraic : Cert.algebraic_KernelIdeal_ReferenceIdeal := by
  intro m ρ m' ρ' _ hagree
  refine ⟨_, Cert.KernelIdeal.KerArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rw [Cert.ReferenceIdeal.Read.val_main_v32_eq, Cert.ReferenceIdeal.RefLayer.result_eq, table_eq, starts_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
